-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x2048 32) (main_arg2 : FVec F S4096x64 .f32) (main_arg3 : FVec F S4096x64 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S64x4096 : Shape := ⟨2, ![64, 4096]⟩
abbrev S1024x256 : Shape := ⟨2, ![1024, 256]⟩
abbrev S8x1024 : Shape := ⟨2, ![8, 1024]⟩
abbrev S1024 : Shape := ⟨1, ![1024]⟩
abbrev S1024x1024 : Shape := ⟨2, ![1024, 1024]⟩
abbrev S1024x8 : Shape := ⟨2, ![1024, 8]⟩
abbrev S1024x8x1 : Shape := ⟨3, ![1024, 8, 1]⟩
abbrev S1024x8x32 : Shape := ⟨3, ![1024, 8, 32]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S8192x2048x2, .f32⟩
  | .hbm, ⟨6, _⟩ => ⟨S8192x2048x1, .f32⟩
  | .hbm, ⟨7, _⟩ => ⟨S8192x2048, .f32⟩
  | .hbm, ⟨8, _⟩ => ⟨S8192x2048x1, .f32⟩
  | .hbm, ⟨9, _⟩ => ⟨S8192x2048, .f32⟩
  | .hbm, ⟨10, _⟩ => ⟨S64x4096, .f32⟩
  | .hbm, ⟨11, _⟩ => ⟨S64x4096, .f32⟩
  | .hbm, ⟨12, _⟩ => ⟨S8192x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .i32⟩
  | .local _ .vmem, ⟨5, _⟩ => ⟨S1024x256, .i32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1024, .f32⟩
  | .local _ .vmem, ⟨11, _⟩ => ⟨S1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_21 : BitVec 32 := 0#32
  let v58 : BitVec 1 := Scalar.cmpi .ne v57 c0_i32_21
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  transposes_S4096x64_S64x4096_1_0 : S4096x64.Transposes [1, 0] S64x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  shapeCasts_S1024x8x1_S1024x8x1 : S1024x8x1.ShapeCasts S1024x8x1
  broadcasts_S1024x8x1_S1024x8x32 : S1024x8x1.Broadcasts S1024x8x32
  shapeCasts_S1024x8x32_S1024x256 : S1024x8x32.ShapeCasts S1024x256
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x256 : S1024x1.Broadcasts S1024x256
  shapeCasts_S1024x256_S1024x256 : S1024x256.ShapeCasts S1024x256
  bitsLt_bf16_f32 : FTy.bits .bf16 < FTy.bits .f32
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x2048.size a
  hwx0_0 : ∀ i : grid0.Coords, EltTy.bits .f32 = 32 ∨ (Rect.block (s := S8192x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x2048.size a
  hwx0_2 : ∀ i : grid0.Coords, EltTy.bits .i32 = 32 ∨ (Rect.block (s := S4096x2048) S1024x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x4096.size a
  hwx0_3 : ∀ i : grid0.Coords, EltTy.bits .f32 = 32 ∨ (Rect.block (s := S64x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S64x4096.size a
  hwx0_4 : ∀ i : grid0.Coords, EltTy.bits .f32 = 32 ∨ (Rect.block (s := S64x4096) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x2048 : Shape := ⟨2, ![4096, 2048]⟩
abbrev S4096x64 : Shape := ⟨2, ![4096, 64]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x64x64 : Shape := ⟨3, ![4096, 64, 64]⟩
abbrev S4096x64x1 : Shape := ⟨3, ![4096, 64, 1]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .i32⟩
  | .hbm, ⟨2, _⟩ => ⟨S4096x64, .f32⟩
  | .hbm, ⟨3, _⟩ => ⟨S4096x64, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S4096x64x64, .f32⟩
  | .hbm, ⟨20, _⟩ => ⟨S4096x64x1, .f32⟩
  | .hbm, ⟨21, _⟩ => ⟨S4096x64x64, .f32⟩
  | .hbm, ⟨22, _⟩ => ⟨S4096x64x64, .f32⟩
  | .hbm, ⟨23, _⟩ => ⟨S4096x64x1, .f32⟩
  | .hbm, ⟨24, _⟩ => ⟨S4096x64x64, .f32⟩
  | .hbm, ⟨25, _⟩ => ⟨S4096x64x64, .f32⟩
  | .hbm, ⟨26, _⟩ => ⟨S4096x4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibWholeStore.lean ====
/-
  Stores that each write a WHOLE block, and a load of the whole block between them.

  When every store of a body writes its buffer whole, the buffer's contents after any prefix of the stores are the
  last store's payload, however many stores came before: the later store hides the earlier ones. So a load of the
  whole buffer after such a prefix reads that payload. The library states this for a list of ONE store
  (`View.readCov_unit_zero`); an accumulator that is zeroed and then updated twice at one grid point meets a load
  after TWO stores, and one updated `k` times a load after `k`.
-/
import Idealize.ShloMosaic.Lib.Pipeline.Value

namespace Cert.LibWholeStore

open Idealize.ShloMosaic

/-- A load of the whole block (the rectangle at offset zero of the block's own size), after a list of stores the
    LAST of which (the list's head) wrote the whole block, reads that store's payload `w`, whatever the earlier
    stores `L` were. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibWholeStore
-- ==== Proof.KernelPieces.lean ====
/-
  What one grid point leaves in the carried accumulator block, and what the last point of a run of eight writes
  to the output block, as ONE function `step` of the point's six input blocks and of the block the point before
  left: the accumulator plus the product of the even-column block of x with the low-field weights, plus the
  product of the odd-column block with the high-field weights. The first point of a run starts from the zero
  block; the last one copies the accumulator, after its own update, to the output block.

  Every store of the body writes the whole 1024×1024 block, so what the block holds afterwards is the last store's
  payload, and a load of the block between two stores reads the earlier store's payload.
-/
import proofs.«125095_j88304527606015_1_alg».proof.Proof.Gen.KernelIdeal.Frame
import Idealize.ShloMosaic.Lib.Pipeline.Value
import proofs.«125095_j88304527606015_1_alg».proof.Proof.LibWholeStore

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen Cert.LibWholeStore

variable {F : FTy → Type} [FloatOps F]

theorem hz2 : (![0, 0] : Fin 2 → ℕ) = fun _ => 0 := by funext a; fin_cases a <;> rfl
theorem hz1 : (![0] : Fin 1 → ℕ) = fun _ => 0 := by funext a; fin_cases a; rfl

/-- One grid step: the carried block plus the even-column product, plus the odd-column product.
    `x0`, `x1` are the even- and odd-column blocks of x, `x2` the packed words, `x3`, `x4` the (transposed)
    scale and zero-point blocks, `x5` the rows' second scale. -/
def step (x0 : Vec F S1024x256 .f32) (x1 : Vec F S1024x256 .f32) (x2 : Vec F S1024x256 .i32) (x3 : Vec F S8x1024 .f32) (x4 : Vec F S8x1024 .f32) (x5 : Vec F S1024 .f32) (acc : Vec F S1024x1024 .f32) : Vec F S1024x1024 .f32 :=
  k0_pay2 (k0_pay8 x2 x3 x4 x5) x1 (k0_pay1 (k0_pay7 x2 x3 x4 x5) (k0_pay9 x0) acc)

/-- The first point of a run of eight: the accumulator is zeroed, then updated. -/
theorem sout_A (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .i32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x256 .f32) (x1 : Vec F S1024x256 .f32) (x2 : Vec F S1024x256 .i32) (x3 : Vec F S8x1024 .f32) (x4 : Vec F S8x1024 .f32) (x5 : Vec F S1024 .f32) :
    sout0_A_0 c i arg3 harg3 arg4 harg4 arg5 harg5 arg6 harg6 arg7 harg7 arg8 harg8 arg9 harg9 arg10 harg10 hc0 hc1 x0 x1 x2 x3 x4 x5 = step x0 x1 x2 x3 x4 x5 (k0_pay3 (F := F)) := by
  unfold sout0_A_0 step
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz2]
  simp only [readCov_cons_whole (S := S1024x1024) _ hz2, View.readCov_unit_zero (S := S1024x1024) _ hz2, View.readAt_eq_ld, Memref.IsWhole.read_unread, View.ld_unit_zero (S := S1024x256) hz2, View.ld_unit_zero (S := S8x1024) hz2, View.ld_unit_zero (S := S1024x1024) hz2, View.ld_unit_zero (S := S1024) hz1]

/-- A middle point: the accumulator the point before left, updated. -/
theorem sout_B (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .i32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x256 .f32) (x1 : Vec F S1024x256 .f32) (x2 : Vec F S1024x256 .i32) (x3 : Vec F S8x1024 .f32) (x4 : Vec F S8x1024 .f32) (x5 : Vec F S1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = step x0 x1 x2 x3 x4 x5 xs0 := by
  unfold sout0_B_0 step
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_cons_unit_zero (S := S1024x1024) hz2]
  simp only [readCov_cons_whole (S := S1024x1024) _ hz2, View.readCov_unit_zero (S := S1024x1024) _ hz2, View.readAt_eq_ld, Memref.IsWhole.read_unread, View.ld_unit_zero (S := S1024x256) hz2, View.ld_unit_zero (S := S8x1024) hz2, View.ld_unit_zero (S := S1024x1024) hz2, View.ld_unit_zero (S := S1024) hz1]

/-- The last point of a run: the same update of the accumulator … -/
theorem sout_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .i32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x256 .f32) (x1 : Vec F S1024x256 .f32) (x2 : Vec F S1024x256 .i32) (x3 : Vec F S8x1024 .f32) (x4 : Vec F S8x1024 .f32) (x5 : Vec F S1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = step x0 x1 x2 x3 x4 x5 xs0 := by
  unfold sout0_C_0 step
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_cons_unit_zero (S := S1024x1024) hz2]
  simp only [readCov_cons_whole (S := S1024x1024) _ hz2, View.readCov_unit_zero (S := S1024x1024) _ hz2, View.readAt_eq_ld, Memref.IsWhole.read_unread, View.ld_unit_zero (S := S1024x256) hz2, View.ld_unit_zero (S := S8x1024) hz2, View.ld_unit_zero (S := S1024x1024) hz2, View.ld_unit_zero (S := S1024) hz1]

/-- … and the output block receives the updated accumulator. -/
theorem out_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S1024x256 .i32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x256 .f32) (x1 : Vec F S1024x256 .f32) (x2 : Vec F S1024x256 .i32) (x3 : Vec F S8x1024 .f32) (x4 : Vec F S8x1024 .f32) (x5 : Vec F S1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = step x0 x1 x2 x3 x4 x5 xs0 := by
  unfold out0_C_6 step
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz2]
  simp only [readCov_cons_whole (S := S1024x1024) _ hz2, View.readCov_unit_zero (S := S1024x1024) _ hz2, View.readAt_eq_ld, Memref.IsWhole.read_unread, View.ld_unit_zero (S := S1024x256) hz2, View.ld_unit_zero (S := S8x1024) hz2, View.ld_unit_zero (S := S1024x1024) hz2, View.ld_unit_zero (S := S1024) hz1]

end Cert.KernelIdeal.Pieces

end
-- ==== Proof.Weights.lean ====
/-
  The mathematics both programs compute, stated once over the whole argument arrays.

  A packed word of `W_q[n, q]` holds two 4-bit fields: the low one is the quantised weight of column `2q`,
  the next one that of column `2q + 1`. Column `c` of row `n` therefore reads the field of parity `c % 2`
  of word `c / 2`, lies in quantisation group `c / 64`, and its weight is
      W[n, c] = ((field − zero[n, c / 64]) · scale[n, c / 64]) · scale2[n],
  the field read as a (signed) integer. The result is the plain product `out[m, n] = Σ_c x[m, c] · W[n, c]`
  over the extended reals, the multiplications in exactly this order.
-/
import Idealize.ShloMosaic.PureOps.Ideal
import Idealize.ShloMosaic.Lib.ValueIdx

noncomputable section

namespace Cert.Weights

open Idealize.ShloMosaic Idealize.ShloMosaic.ValueIdx

/-- The 4-bit field of a packed word that a column of parity `b` reads: bits 0–3 for an even column, bits 4–7
    (an arithmetic shift by four, then the mask) for an odd one. -/
def field (w : BitVec 32) (b : ℕ) : BitVec 32 :=
  if b = 0 then IntOp.andi w 15#32 else IntOp.andi (IntOp.shrsi .host w 4#32) 15#32

/-- One dequantised weight from its field `q`, its group's zero point `z` and scale `s`, and its row's second
    scale `s2`: `((q − z) · s) · s2`, the integer `q` read exactly. -/
def deq (q : BitVec 32) (z s s2 : EReal) : EReal :=
  ((FloatOps.sitofp (F := Ideal) .f32 q - z) * s) * s2

/-- Word `c / 2` of a row of 2048 packed words. -/
abbrev half (c : Fin 4096) : Fin 2048 := ⟨c.val / 2, by have := c.isLt; omega⟩
/-- Group `c / 64` of a row of 64 groups. -/
abbrev grp (c : Fin 4096) : Fin 64 := ⟨c.val / 64, by have := c.isLt; omega⟩

/-- The dequantised weight `W[n, c]`. -/
def wgt (wq : IVec ⟨2, ![4096, 2048]⟩ 32) (sc zr : FVec Ideal ⟨2, ![4096, 64]⟩ .f32)
    (s2 : FVec Ideal ⟨1, ![4096]⟩ .f32) (n c : Fin 4096) : EReal :=
  deq (field (wq (ix2 n (half c))) (c.val % 2)) (zr (ix2 n (grp c))) (sc (ix2 n (grp c))) (s2 (ix1 n))

/-- The result array: `out[m, n] = Σ_c x[m, c] · W[n, c]`. -/
def G (x : FVec Ideal ⟨2, ![8192, 4096]⟩ .f32) (wq : IVec ⟨2, ![4096, 2048]⟩ 32)
    (sc zr : FVec Ideal ⟨2, ![4096, 64]⟩ .f32) (s2 : FVec Ideal ⟨1, ![4096]⟩ .f32) :
    FVec Ideal ⟨2, ![8192, 4096]⟩ .f32 :=
  fun j => ∑ c : Fin 4096, x (ix2 (j 0) c) * wgt wq sc zr s2 (j 1) c

/-- An arithmetic shift by four is the same word on the vector unit and on the host: four is below the width. -/
theorem shrsi_four (w : BitVec 32) : IntOp.shrsi .vector w 4#32 = IntOp.shrsi .host w 4#32 := by
  unfold IntOp.shrsi
  rw [if_pos (by decide), if_pos (by decide)]

end Cert.Weights

end
-- ==== Proof.KernelStep.lean ====
/-
  One grid step of the blocked product, read at an entry over the extended reals.

  The body's input blocks at a point are: the even and the odd columns of a 1024-row block of x (256 pairs), the
  matching 1024×256 block of packed words, the [8,1024] blocks of the transposed scales and zero points (the eight
  groups of the point's 512 columns), and the 1024 second scales of the weight rows. Entry (s, p) of the low-field
  weight block is  ((low field of word (s,p) − zero[p/32, s]) · scale[p/32, s]) · scale2[s],  the high-field block
  the same with the word shifted by four; and the step adds to entry (a, b) of the carried block
      Σ_p xeven[a, p] · lo[b, p]  +  Σ_p xodd[a, p] · hi[b, p]:
  both products contract the blocks' second axes, and a change of float format is the identity here.
-/
import proofs.«125095_j88304527606015_1_alg».proof.Proof.Gen.KernelIdeal.Skeleton
import proofs.«125095_j88304527606015_1_alg».proof.Proof.KernelPieces
import proofs.«125095_j88304527606015_1_alg».proof.Proof.Weights
import Idealize.ShloMosaic.Lib.Pipeline.Value
import Idealize.ShloMosaic.Lib.ValueIdx
import Idealize.ShloMosaic.PureOps.Ideal.Laws

noncomputable section

namespace Cert.KernelIdeal.StepValue

open Idealize.ShloMosaic Idealize.ShloMosaic.ValueIdx Idealize.SL.Sem
open Cert.KernelIdeal Cert.KernelIdeal.Gen

variable {F : FTy → Type} [FloatOps F]

/-- Group `p / 32` of a block of 256 packed columns (eight groups of 32). -/
abbrev grp8 (p : Fin 256) : Fin 8 := ⟨p.val / 32, by have := p.isLt; omega⟩

/-- The [8,1024] block of per-group values, transposed and repeated 32 times along the columns of its group:
    entry (s, p) of the [1024,256] result is the value of row `s` in group `p / 32`. -/
theorem expand_apply {α : Type} (v : S8x1024.Idx → α) (h0 : S8x1024.ShapeCasts S8x1024) (h1 : S8x1024.Transposes [1, 0] S1024x8)
    (h2 : S1024x8.ShapeCasts S1024x8x1) (h3 : S1024x8x1.ShapeCasts S1024x8x1) (h4 : S1024x8x1.Broadcasts S1024x8x32)
    (h5 : S1024x8x32.ShapeCasts S1024x256) (s : Fin 1024) (p : Fin 256) :
    shapeCast S1024x256 (broadcastTo S1024x8x32 (shapeCast S1024x8x1 (shapeCast S1024x8x1 (transpose S1024x8 [1, 0] (shapeCast S8x1024 v h0) h1) h2) h3) h4) h5 (ix2 s p)
      = v (ix2 (grp8 p) s) := by
  have hp := p.isLt
  have hs := s.isLt
  refine (shapeCast_apply _ h5 (ix2 s p) (ix3 s (grp8 p) (⟨p.val % 32, Nat.mod_lt _ (by decide)⟩ : Fin 32)) ?_).trans ?_
  · rw [Shape.rowMajor_val_three, Shape.rowMajor_val_two]
    show (s.val * 8 + p.val / 32) * 32 + p.val % 32 = s.val * 256 + p.val
    omega
  refine (broadcastTo_apply _ h4 _ (ix3 s (grp8 p) (0 : Fin 1)) ?_).trans ?_
  · intro a
    match a with
    | ⟨0, _⟩ => show s.val = if (1024 : Nat) = 1 then 0 else s.val; rw [if_neg (by decide)]
    | ⟨1, _⟩ => show p.val / 32 = if (8 : Nat) = 1 then 0 else p.val / 32; rw [if_neg (by decide)]
    | ⟨2, _⟩ => show 0 = if (1 : Nat) = 1 then 0 else p.val % 32; rw [if_pos rfl]
  rw [shapeCast_self]
  refine (shapeCast_apply _ h2 _ (ix2 s (grp8 p)) ?_).trans ?_
  · rw [Shape.rowMajor_val_two, Shape.rowMajor_val_three]
    show s.val * 8 + p.val / 32 = (s.val * 8 + p.val / 32) * 1 + 0
    omega
  refine (transpose_apply [1, 0] _ h1 _ (ix2 (grp8 p) s) ?_).trans ?_
  · intro b
    match b with
    | ⟨0, _⟩ => rfl
    | ⟨1, _⟩ => rfl
  rw [shapeCast_self]

/-- A [1024] vector stood up as a column and repeated along the 256 columns: entry (s, p) is the vector's entry s. -/
theorem column_apply {α : Type} (v : S1024.Idx → α) (h0 : S1024.ShapeCasts S1024x1) (h1 : S1024x1.Broadcasts S1024x256)
    (s : Fin 1024) (p : Fin 256) :
    broadcastTo S1024x256 (shapeCast S1024x1 v h0) h1 (ix2 s p) = v (ix1 s) := by
  refine (broadcastTo_apply _ h1 _ (ix2 s (0 : Fin 1)) ?_).trans ?_
  · intro a
    match a with
    | ⟨0, _⟩ => show s.val = if (1024 : Nat) = 1 then 0 else s.val; rw [if_neg (by decide)]
    | ⟨1, _⟩ => show 0 = if (1 : Nat) = 1 then 0 else p.val; rw [if_pos rfl]
  refine shapeCast_apply _ h0 _ (ix1 s) ?_
  rw [Shape.rowMajor_val_one, Shape.rowMajor_val_two]
  show s.val = s.val * 1 + 0
  omega

/-! ## The product of two 1024×256 blocks along their second axes -/

theorem lhs_axis0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_axis1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_axis0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_axis1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Into the zero block, the product's entry (a, b) is the sum over the 256 shared columns. -/
theorem product_apply {φ₁ φ₂ : FTy} (l : FVec Ideal S1024x256 φ₁) (r : FVec Ideal S1024x256 φ₂) (a b : Fin 1024) :
    matmul dot_S1024x256_S1024x256_S1024x1024_1_1_0_0_n_n none l r (constant (F := Ideal) S1024x1024 .f32 0x00000000#32) (ix2 a b)
      = ∑ p : Fin 256, l (ix2 a p) * r (ix2 b p) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 a b) ((contrEquiv1 dot_S1024x256_S1024x256_S1024x1024_1_1_0_0_n_n 256 rfl rfl).symm k) = ix2 a k := funext fun x => Fin.ext (by
    match x with
    | ⟨0, _⟩ => exact lhs_axis0 _ _
    | ⟨1, _⟩ => exact (lhs_axis1 _ _).trans hk)
  have er : dot_S1024x256_S1024x256_S1024x1024_1_1_0_0_n_n.rhsIdx (ix2 a b) ((contrEquiv1 dot_S1024x256_S1024x256_S1024x1024_1_1_0_0_n_n 256 rfl rfl).symm k) = ix2 b k := funext fun x => Fin.ext (by
    match x with
    | ⟨0, _⟩ => exact rhs_axis0 _ _
    | ⟨1, _⟩ => exact (rhs_axis1 _ _).trans hk)
  rw [el, er]

/-! ## The dequantised weight blocks at an entry -/

theorem scales_apply (v12 : Vec F S8x1024 .f32) (s : Fin 1024) (p : Fin 256) :
    k0_pay4 v12 (ix2 s p) = v12 (ix2 (grp8 p) s) := by
  unfold k0_pay4
  exact expand_apply v12 _ _ _ _ _ _ s p

theorem zeros_apply (v14 : Vec F S8x1024 .f32) (s : Fin 1024) (p : Fin 256) :
    k0_pay5 v14 (ix2 s p) = v14 (ix2 (grp8 p) s) := by
  unfold k0_pay5
  exact expand_apply v14 _ _ _ _ _ _ s p

theorem scale2_apply (v26 : Vec F S1024 .f32) (h : S1024x1.Broadcasts S1024x256) (s : Fin 1024) (p : Fin 256) :
    broadcastTo S1024x256 (k0_pay6 v26) h (ix2 s p) = v26 (ix1 s) := by
  unfold k0_pay6
  exact column_apply v26 _ h s p

/-- The low-field weight block. -/
theorem lo_apply (v3 : Vec Ideal S1024x256 .i32) (v12 v14 : Vec Ideal S8x1024 .f32) (v26 : Vec Ideal S1024 .f32)
    (s : Fin 1024) (p : Fin 256) :
    k0_pay7 (F := Ideal) v3 v12 v14 v26 (ix2 s p)
      = Cert.Weights.deq (IntOp.andi (v3 (ix2 s p)) 15#32) (v14 (ix2 (grp8 p) s)) (v12 (ix2 (grp8 p) s)) (v26 (ix1 s)) := by
  have e : k0_pay7 (F := Ideal) v3 v12 v14 v26 (ix2 s p)
      = ((FloatOps.sitofp (F := Ideal) .f32 (IntOp.andi (v3 (ix2 s p)) 15#32) - k0_pay5 (F := Ideal) v14 (ix2 s p))
          * k0_pay4 (F := Ideal) v12 (ix2 s p))
        * broadcastTo S1024x256 (k0_pay6 (F := Ideal) v26) broadcasts_S1024x1_S1024x256 (ix2 s p) := rfl
  rw [e, scales_apply, zeros_apply, scale2_apply]
  rfl

/-- The high-field weight block: the word shifted right by four (arithmetically), then the same mask. -/
theorem hi_apply (v3 : Vec Ideal S1024x256 .i32) (v12 v14 : Vec Ideal S8x1024 .f32) (v26 : Vec Ideal S1024 .f32)
    (s : Fin 1024) (p : Fin 256) :
    k0_pay8 (F := Ideal) v3 v12 v14 v26 (ix2 s p)
      = Cert.Weights.deq (IntOp.andi (IntOp.shrsi .vector (v3 (ix2 s p)) 4#32) 15#32) (v14 (ix2 (grp8 p) s)) (v12 (ix2 (grp8 p) s)) (v26 (ix1 s)) := by
  have e : k0_pay8 (F := Ideal) v3 v12 v14 v26 (ix2 s p)
      = ((FloatOps.sitofp (F := Ideal) .f32 (IntOp.andi (IntOp.shrsi .vector (v3 (ix2 s p)) 4#32) 15#32) - k0_pay5 (F := Ideal) v14 (ix2 s p))
          * k0_pay4 (F := Ideal) v12 (ix2 s p))
        * broadcastTo S1024x256 (k0_pay6 (F := Ideal) v26) broadcasts_S1024x1_S1024x256 (ix2 s p) := rfl
  rw [e, scales_apply, zeros_apply, scale2_apply]
  rfl

/-! ## The two updates and the step -/

/-- The first update: the carried block plus the even-column product. -/
theorem even_update_apply (v31 : FVec Ideal S1024x256 .f32) (v38 : FVec Ideal S1024x256 .bf16) (v44 : Vec Ideal S1024x1024 .f32)
    (a b : Fin 1024) :
    k0_pay1 (F := Ideal) v31 v38 v44 (ix2 a b) = v44 (ix2 a b) + ∑ p : Fin 256, v38 (ix2 a p) * v31 (ix2 b p) := by
  unfold k0_pay1
  rw [shapeCast_self]
  show v44 (ix2 a b) + matmul dot_S1024x256_S1024x256_S1024x1024_1_1_0_0_n_n none v38 (truncf .bf16 v31 bitsLt_bf16_f32) (constant (F := Ideal) S1024x1024 .f32 0x00000000#32) (ix2 a b) = _
  rw [product_apply]
  rfl

/-- The second update: plus the odd-column product. -/
theorem odd_update_apply (v35 : FVec Ideal S1024x256 .f32) (v39 : Vec Ideal S1024x256 .f32) (v50 : Vec Ideal S1024x1024 .f32)
    (a b : Fin 1024) :
    k0_pay2 (F := Ideal) v35 v39 v50 (ix2 a b) = v50 (ix2 a b) + ∑ p : Fin 256, v39 (ix2 a p) * v35 (ix2 b p) := by
  unfold k0_pay2
  rw [shapeCast_self, shapeCast_self]
  show v50 (ix2 a b) + matmul dot_S1024x256_S1024x256_S1024x1024_1_1_0_0_n_n none (truncf .bf16 v39 bitsLt_bf16_f32) (truncf .bf16 v35 bitsLt_bf16_f32) (constant (F := Ideal) S1024x1024 .f32 0x00000000#32) (ix2 a b) = _
  rw [product_apply]
  rfl

theorem xeven_apply (v36 : Vec Ideal S1024x256 .f32) (a : Fin 1024) (p : Fin 256) :
    k0_pay9 (F := Ideal) v36 (ix2 a p) = v36 (ix2 a p) := by
  unfold k0_pay9
  rw [shapeCast_self]
  rfl

/-- The weight of row `s` of the block at packed column `p`, from the point's blocks: low field. -/
abbrev loW (x2 : Vec Ideal S1024x256 .i32) (x3 x4 : Vec Ideal S8x1024 .f32) (x5 : Vec Ideal S1024 .f32) (s : Fin 1024) (p : Fin 256) : EReal :=
  Cert.Weights.deq (IntOp.andi (x2 (ix2 s p)) 15#32) (x4 (ix2 (grp8 p) s)) (x3 (ix2 (grp8 p) s)) (x5 (ix1 s))
/-- … and high field. -/
abbrev hiW (x2 : Vec Ideal S1024x256 .i32) (x3 x4 : Vec Ideal S8x1024 .f32) (x5 : Vec Ideal S1024 .f32) (s : Fin 1024) (p : Fin 256) : EReal :=
  Cert.Weights.deq (IntOp.andi (IntOp.shrsi .vector (x2 (ix2 s p)) 4#32) 15#32) (x4 (ix2 (grp8 p) s)) (x3 (ix2 (grp8 p) s)) (x5 (ix1 s))

/-- ONE STEP at an entry: the carried entry plus the point's share of the product. -/
theorem step_apply (x0 x1 : Vec Ideal S1024x256 .f32) (x2 : Vec Ideal S1024x256 .i32) (x3 x4 : Vec Ideal S8x1024 .f32)
    (x5 : Vec Ideal S1024 .f32) (acc : Vec Ideal S1024x1024 .f32) (a b : Fin 1024) :
    Cert.KernelIdeal.Pieces.step (F := Ideal) x0 x1 x2 x3 x4 x5 acc (ix2 a b)
      = acc (ix2 a b) + ((∑ p : Fin 256, x0 (ix2 a p) * loW x2 x3 x4 x5 b p) + ∑ p : Fin 256, x1 (ix2 a p) * hiW x2 x3 x4 x5 b p) := by
  unfold Cert.KernelIdeal.Pieces.step
  rw [odd_update_apply, even_update_apply, add_assoc]
  congr 2
  · exact Finset.sum_congr rfl fun p _ => by rw [xeven_apply, lo_apply]
  · exact Finset.sum_congr rfl fun p _ => by rw [hi_apply]

end Cert.KernelIdeal.StepValue

end
-- ==== Proof.KernelBlocks.lean ====
/-
  The body's input blocks at a grid point, as entries of the whole argument arrays.

  The grid is 8 × 4 × 8, walked with the last axis fastest: point `t` is (i, j, k) with i = t / 32 (the row block
  of x), j = t / 8 % 4 (the row block of the weight), k = t % 8 (the block of 512 columns, that is of 256 packed
  words and of 8 groups). Before the region the host splits x into its even and its odd columns (a reshape to
  pairs, a slice of one member of each pair, a reshape back) and transposes the scale and zero-point tables, so

      even block (r, p)   = x[1024·i + r, 2·(256·k + p)]          odd block (r, p) = x[1024·i + r, 2·(256·k + p) + 1]
      word block (s, p)   = W_q[1024·j + s, 256·k + p]
      scale block (g, s)  = scale[1024·j + s, 8·k + g]            zero block (g, s) = zero[1024·j + s, 8·k + g]
      scale2 block (s)    = scale2[1024·j + s].
-/
import proofs.«125095_j88304527606015_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]
variable (m : (ℓ : Loc nD τ sig) → Buf (Elt F) ℓ)

/-! ## The point's rows, columns and groups in the whole arrays -/

theorem lt256 (t : Fin cfg0.N) : t.val < 256 := lt_of_lt_of_eq t.isLt N_0

/-- Row `1024·i + r` of x. -/
abbrev rowX (t : Fin cfg0.N) (r : Fin 1024) : Fin 8192 := ⟨1024 * (t.val / 32) + r.val, by have := lt256 t; have := r.isLt; omega⟩
/-- Row `1024·j + s` of the weight. -/
abbrev rowW (t : Fin cfg0.N) (s : Fin 1024) : Fin 4096 := ⟨1024 * (t.val / 8 % 4) + s.val, by have := s.isLt; omega⟩
/-- Packed column `256·k + p`. -/
abbrev colQ (t : Fin cfg0.N) (p : Fin 256) : Fin 2048 := ⟨256 * (t.val % 8) + p.val, by have := p.isLt; omega⟩
/-- Group `8·k + g`. -/
abbrev grpG (t : Fin cfg0.N) (g : Fin 8) : Fin 64 := ⟨8 * (t.val % 8) + g.val, by have := g.isLt; omega⟩

/-! ## The index maps, decided over the grid -/

theorem index0 : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)
theorem index1 : ∀ t : Fin cfg0.N, win0_1.index t (0 : Fin 2) = t.val / 32 ∧ win0_1.index t (1 : Fin 2) = t.val % 8 :=
  (by decide +kernel : ∀ t : Fin grid0.N, win0_1.index t (0 : Fin 2) = t.val / 32 ∧ win0_1.index t (1 : Fin 2) = t.val % 8)
theorem index2 : ∀ t : Fin cfg0.N, win0_2.index t (0 : Fin 2) = t.val / 8 % 4 ∧ win0_2.index t (1 : Fin 2) = t.val % 8 :=
  (by decide +kernel : ∀ t : Fin grid0.N, win0_2.index t (0 : Fin 2) = t.val / 8 % 4 ∧ win0_2.index t (1 : Fin 2) = t.val % 8)
theorem index3 : ∀ t : Fin cfg0.N, win0_3.index t (0 : Fin 2) = t.val % 8 ∧ win0_3.index t (1 : Fin 2) = t.val / 8 % 4 :=
  (by decide +kernel : ∀ t : Fin grid0.N, win0_3.index t (0 : Fin 2) = t.val % 8 ∧ win0_3.index t (1 : Fin 2) = t.val / 8 % 4)
theorem index4 : ∀ t : Fin cfg0.N, win0_4.index t (0 : Fin 2) = t.val % 8 ∧ win0_4.index t (1 : Fin 2) = t.val / 8 % 4 :=
  (by decide +kernel : ∀ t : Fin grid0.N, win0_4.index t (0 : Fin 2) = t.val % 8 ∧ win0_4.index t (1 : Fin 2) = t.val / 8 % 4)
theorem index5 : ∀ t : Fin cfg0.N, win0_5.index t (0 : Fin 1) = t.val / 8 % 4 :=
  (by decide +kernel : ∀ t : Fin grid0.N, win0_5.index t (0 : Fin 1) = t.val / 8 % 4)
theorem index6 : ∀ t : Fin cfg0.N, win0_6.index t (0 : Fin 2) = t.val / 32 ∧ win0_6.index t (1 : Fin 2) = t.val / 8 % 4 :=
  (by decide +kernel : ∀ t : Fin grid0.N, win0_6.index t (0 : Fin 2) = t.val / 32 ∧ win0_6.index t (1 : Fin 2) = t.val / 8 % 4)

/-! ## Each input block at an entry of its array as the region finds it -/

theorem xeven_block (c : Dev nD) (t : Fin cfg0.N) (r : Fin 1024) (p : Fin 256) :
    iblk m c 0 t (ix2 r p) = V m c main_v2 (ix2 (rowX t r) (colQ t p)) := by
  unfold iblk
  rw [View.read_apply]
  show V m c main_v2 (((cfg0.win 0).blk t).view.emb (ix2 r p)) = V m c main_v2 _
  refine congrArg (V m c main_v2) (funext fun a => Fin.ext ?_)
  match a with
  | ⟨0, _⟩ => show win0_0.index t 0 * 1024 + 1 * r.val = 1024 * (t.val / 32) + r.val; rw [(index0 t).1]; omega
  | ⟨1, _⟩ => show win0_0.index t 1 * 256 + 1 * p.val = 256 * (t.val % 8) + p.val; rw [(index0 t).2]; omega

theorem xodd_block (c : Dev nD) (t : Fin cfg0.N) (r : Fin 1024) (p : Fin 256) :
    iblk m c 1 t (ix2 r p) = V m c main_v4 (ix2 (rowX t r) (colQ t p)) := by
  unfold iblk
  rw [View.read_apply]
  show V m c main_v4 (((cfg0.win 1).blk t).view.emb (ix2 r p)) = V m c main_v4 _
  refine congrArg (V m c main_v4) (funext fun a => Fin.ext ?_)
  match a with
  | ⟨0, _⟩ => show win0_1.index t 0 * 1024 + 1 * r.val = 1024 * (t.val / 32) + r.val; rw [(index1 t).1]; omega
  | ⟨1, _⟩ => show win0_1.index t 1 * 256 + 1 * p.val = 256 * (t.val % 8) + p.val; rw [(index1 t).2]; omega

theorem word_block (c : Dev nD) (t : Fin cfg0.N) (s : Fin 1024) (p : Fin 256) :
    iblk m c 2 t (ix2 s p) = V m c main_arg1 (ix2 (rowW t s) (colQ t p)) := by
  unfold iblk
  rw [View.read_apply]
  show V m c main_arg1 (((cfg0.win 2).blk t).view.emb (ix2 s p)) = V m c main_arg1 _
  refine congrArg (V m c main_arg1) (funext fun a => Fin.ext ?_)
  match a with
  | ⟨0, _⟩ => show win0_2.index t 0 * 1024 + 1 * s.val = 1024 * (t.val / 8 % 4) + s.val; rw [(index2 t).1]; omega
  | ⟨1, _⟩ => show win0_2.index t 1 * 256 + 1 * p.val = 256 * (t.val % 8) + p.val; rw [(index2 t).2]; omega

theorem scale_block (c : Dev nD) (t : Fin cfg0.N) (g : Fin 8) (s : Fin 1024) :
    iblk m c 3 t (ix2 g s) = V m c main_v5 (ix2 (grpG t g) (rowW t s)) := by
  unfold iblk
  rw [View.read_apply]
  show V m c main_v5 (((cfg0.win 3).blk t).view.emb (ix2 g s)) = V m c main_v5 _
  refine congrArg (V m c main_v5) (funext fun a => Fin.ext ?_)
  match a with
  | ⟨0, _⟩ => show win0_3.index t 0 * 8 + 1 * g.val = 8 * (t.val % 8) + g.val; rw [(index3 t).1]; omega
  | ⟨1, _⟩ => show win0_3.index t 1 * 1024 + 1 * s.val = 1024 * (t.val / 8 % 4) + s.val; rw [(index3 t).2]; omega

theorem zero_block (c : Dev nD) (t : Fin cfg0.N) (g : Fin 8) (s : Fin 1024) :
    iblk m c 4 t (ix2 g s) = V m c main_v6 (ix2 (grpG t g) (rowW t s)) := by
  unfold iblk
  rw [View.read_apply]
  show V m c main_v6 (((cfg0.win 4).blk t).view.emb (ix2 g s)) = V m c main_v6 _
  refine congrArg (V m c main_v6) (funext fun a => Fin.ext ?_)
  match a with
  | ⟨0, _⟩ => show win0_4.index t 0 * 8 + 1 * g.val = 8 * (t.val % 8) + g.val; rw [(index4 t).1]; omega
  | ⟨1, _⟩ => show win0_4.index t 1 * 1024 + 1 * s.val = 1024 * (t.val / 8 % 4) + s.val; rw [(index4 t).2]; omega

theorem scale2_block (c : Dev nD) (t : Fin cfg0.N) (s : Fin 1024) :
    iblk m c 5 t (ix1 s) = V m c main_arg4 (ix1 (rowW t s)) := by
  unfold iblk
  rw [View.read_apply]
  show V m c main_arg4 (((cfg0.win 5).blk t).view.emb (ix1 s)) = V m c main_arg4 _
  refine congrArg (V m c main_arg4) (funext fun a => Fin.ext ?_)
  match a with
  | ⟨0, _⟩ => show win0_5.index t 0 * 1024 + 1 * s.val = 1024 * (t.val / 8 % 4) + s.val; rw [index5 t]; omega

/-! ## The host's work before the region, at an entry -/

/-- The even columns of x: pair `q`'s first member is column `2·q`. -/
theorem V_even (c : Dev nD) (a : Fin 8192) (q : Fin 2048) :
    V m c main_v2 (ix2 a q) = m ((c : Thread nD τ).loc main_arg0) (ix2 a (⟨2 * q.val, by have := q.isLt; omega⟩ : Fin 4096)) := by
  have e : (V m c main_v2 : S8192x2048.Idx → Elt F .f32)
      = shapeCast S8192x2048 (extractStridedSlice S8192x2048x1 ![0, 0, 0]
          (shapeCast S8192x2048x2 (m ((c : Thread nD τ).loc main_arg0)) shapeCasts_S8192x4096_S8192x2048x2)
          slices_S8192x2048x2_S8192x2048x1_0_0_0) shapeCasts_S8192x2048x1_S8192x2048 := by
    dsimp only [V, hostOps0]; after_results; rfl
  rw [e]
  refine (shapeCast_apply _ _ (ix2 a q) (ix3 a q (0 : Fin 1)) ?_).trans ?_
  · rw [Shape.rowMajor_val_three, Shape.rowMajor_val_two]
    show (a.val * 2048 + q.val) * 1 + 0 = a.val * 2048 + q.val
    omega
  refine (extractStridedSlice_apply _ _ _ (ix3 a q (0 : Fin 1)) (ix3 a q (0 : Fin 2)) ?_).trans ?_
  · intro b
    match b with
    | ⟨0, _⟩ => show a.val = 0 + a.val; omega
    | ⟨1, _⟩ => show q.val = 0 + q.val; omega
    | ⟨2, _⟩ => show 0 = 0 + 0; rfl
  refine shapeCast_apply _ _ _ (ix2 a (⟨2 * q.val, by have := q.isLt; omega⟩ : Fin 4096)) ?_
  rw [Shape.rowMajor_val_two, Shape.rowMajor_val_three]
  show a.val * 4096 + 2 * q.val = (a.val * 2048 + q.val) * 2 + 0
  omega

/-- The odd columns of x: pair `q`'s second member is column `2·q + 1`. -/
theorem V_odd (c : Dev nD) (a : Fin 8192) (q : Fin 2048) :
    V m c main_v4 (ix2 a q) = m ((c : Thread nD τ).loc main_arg0) (ix2 a (⟨2 * q.val + 1, by have := q.isLt; omega⟩ : Fin 4096)) := by
  have e : (V m c main_v4 : S8192x2048.Idx → Elt F .f32)
      = shapeCast S8192x2048 (extractStridedSlice S8192x2048x1 ![0, 0, 1]
          (shapeCast S8192x2048x2 (m ((c : Thread nD τ).loc main_arg0)) shapeCasts_S8192x4096_S8192x2048x2)
          slices_S8192x2048x2_S8192x2048x1_0_0_1) shapeCasts_S8192x2048x1_S8192x2048 := by
    dsimp only [V, hostOps0]; after_results; rfl
  rw [e]
  refine (shapeCast_apply _ _ (ix2 a q) (ix3 a q (0 : Fin 1)) ?_).trans ?_
  · rw [Shape.rowMajor_val_three, Shape.rowMajor_val_two]
    show (a.val * 2048 + q.val) * 1 + 0 = a.val * 2048 + q.val
    omega
  refine (extractStridedSlice_apply _ _ _ (ix3 a q (0 : Fin 1)) (ix3 a q (1 : Fin 2)) ?_).trans ?_
  · intro b
    match b with
    | ⟨0, _⟩ => show a.val = 0 + a.val; omega
    | ⟨1, _⟩ => show q.val = 0 + q.val; omega
    | ⟨2, _⟩ => show 1 = 1 + 0; rfl
  refine shapeCast_apply _ _ _ (ix2 a (⟨2 * q.val + 1, by have := q.isLt; omega⟩ : Fin 4096)) ?_
  rw [Shape.rowMajor_val_two, Shape.rowMajor_val_three]
  show a.val * 4096 + (2 * q.val + 1) = (a.val * 2048 + q.val) * 2 + 1
  omega

/-- The transposed scale table. -/
theorem V_scaleT (c : Dev nD) (g : Fin 64) (n : Fin 4096) :
    V m c main_v5 (ix2 g n) = m ((c : Thread nD τ).loc main_arg2) (ix2 n g) := by
  have e : (V m c main_v5 : S64x4096.Idx → Elt F .f32)
      = transpose S64x4096 [1, 0] (m ((c : Thread nD τ).loc main_arg2)) transposes_S4096x64_S64x4096_1_0 := by
    dsimp only [V, hostOps0]; after_results
  rw [e]
  exact transpose_apply [1, 0] _ _ (ix2 g n) (ix2 n g) (fun b => match b with
    | ⟨0, _⟩ => rfl
    | ⟨1, _⟩ => rfl)

/-- The transposed zero-point table. -/
theorem V_zeroT (c : Dev nD) (g : Fin 64) (n : Fin 4096) :
    V m c main_v6 (ix2 g n) = m ((c : Thread nD τ).loc main_arg3) (ix2 n g) := by
  have e : (V m c main_v6 : S64x4096.Idx → Elt F .f32)
      = transpose S64x4096 [1, 0] (m ((c : Thread nD τ).loc main_arg3)) transposes_S4096x64_S64x4096_1_0 := by
    dsimp only [V, hostOps0]; after_results
  rw [e]
  exact transpose_apply [1, 0] _ _ (ix2 g n) (ix2 n g) (fun b => match b with
    | ⟨0, _⟩ => rfl
    | ⟨1, _⟩ => rfl)

end Cert.KernelIdeal.Blocks

end
-- ==== Proof.SumSplit.lean ====
/-
  A sum over the 4096 columns, cut the way the blocked kernel walks them: eight consecutive blocks of 512
  columns, and inside a block the 256 even columns apart from the 256 odd ones. Column `512·s + 2·p + b`
  (`s < 8`, `p < 256`, `b < 2`) is met exactly once, so in any commutative monoid the whole sum is the sum
  over the blocks of (the even columns' sum plus the odd columns' sum). No finiteness is used: only that
  addition is commutative and associative.
-/
import Mathlib.Algebra.BigOperators.Fin
import Mathlib.Algebra.BigOperators.Group.Finset.Basic
import Mathlib.Data.Fintype.BigOperators
import Mathlib.Data.Fintype.Card
import Mathlib.Data.Fintype.Prod

namespace Cert.SumSplit

/-- Column `512·s + 2·p + b`. -/
def col (x : Fin 8 × Fin 256 × Fin 2) : Fin 4096 :=
  ⟨512 * x.1.val + 2 * x.2.1.val + x.2.2.val, by
    have h1 := x.1.isLt; have h2 := x.2.1.isLt; have h3 := x.2.2.isLt; omega⟩

theorem col_injective : Function.Injective col := by
  rintro ⟨a, p, b⟩ ⟨a', p', b'⟩ h
  have h0 : 512 * a.val + 2 * p.val + b.val = 512 * a'.val + 2 * p'.val + b'.val := congrArg Fin.val h
  have hp := p.isLt; have hp' := p'.isLt; have hb := b.isLt; have hb' := b'.isLt
  have e1 : a = a' := Fin.ext (by omega)
  have e2 : p = p' := Fin.ext (by omega)
  have e3 : b = b' := Fin.ext (by omega)
  rw [e1, e2, e3]

theorem col_bijective : Function.Bijective col :=
  (Fintype.bijective_iff_injective_and_card col).mpr ⟨col_injective, by
    simp only [Fintype.card_prod, Fintype.card_fin]⟩

/-- The whole sum, block by block, even columns and odd columns apart. `g s` is block `s`'s share. -/
theorem sum_blocks {M : Type*} [AddCommMonoid M] (f : Fin 4096 → M) (g : ℕ → M)
    (hg : ∀ (s : ℕ) (hs : s < 8), g s
      = (∑ p : Fin 256, f ⟨512 * s + 2 * p.val, by have := p.isLt; omega⟩)
        + ∑ p : Fin 256, f ⟨512 * s + 2 * p.val + 1, by have := p.isLt; omega⟩) :
    ∑ c : Fin 4096, f c = ∑ s ∈ Finset.range 8, g s := by
  rw [Finset.sum_range]
  rw [← Fintype.sum_bijective col col_bijective (fun x => f (col x)) f (fun _ => rfl)]
  rw [Fintype.sum_prod_type]
  refine Finset.sum_congr rfl fun a _ => ?_
  rw [hg a.val a.isLt, Fintype.sum_prod_type, ← Finset.sum_add_distrib]
  refine Finset.sum_congr rfl fun p _ => ?_
  rw [Fin.sum_univ_two]
  rfl

end Cert.SumSplit
-- ==== Proof.KernelValue.lean ====
/-
  The kernel's result array, at the ideal values, is the product `out[m, n] = Σ_c x[m, c] · W[n, c]`.

  A run of eight consecutive grid points (same row block of x, same row block of the weight, the eight blocks of
  512 columns in turn) carries one 1024×1024 accumulator: zeroed at the run's first point, and at every point
  increased, entry by entry, by the point's SHARE — the sum over the point's 256 even columns plus the sum over
  its 256 odd columns of x-entry times weight. After the run's last point the accumulator's entry (a, b) is the sum
  of the eight shares, which is the whole sum over the 4096 columns; that point copies it to the output block,
  and the 8 × 4 output blocks tile the result array.
-/
import proofs.«125095_j88304527606015_1_alg».proof.Proof.Gen.KernelIdeal.Value
import proofs.«125095_j88304527606015_1_alg».proof.Proof.KernelPieces
import proofs.«125095_j88304527606015_1_alg».proof.Proof.KernelStep
import proofs.«125095_j88304527606015_1_alg».proof.Proof.KernelBlocks
import proofs.«125095_j88304527606015_1_alg».proof.Proof.SumSplit
import proofs.«125095_j88304527606015_1_alg».proof.Proof.Weights
import Idealize.ShloMosaic.Lib.Pipeline.Value
import Idealize.ShloMosaic.Lib.ValueIdx
import Idealize.ShloMosaic.PureOps.Ideal.Laws

set_option maxRecDepth 16384

noncomputable section

namespace Cert.KernelIdeal.FoldValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value
open Cert.KernelIdeal.Pieces Cert.KernelIdeal.StepValue Cert.KernelIdeal.Blocks

variable (m : (ℓ : Loc nD τ sig) → Buf (Elt Ideal) ℓ) (ρ : Dev nD → PrngReg)

/-! ## The argument arrays and the point's blocks, named at their literal types -/

/-- x. -/
abbrev X (c : Dev nD) : FVec Ideal ⟨2, ![8192, 4096]⟩ .f32 := m ((c : Thread nD τ).loc main_arg0)
/-- The packed words. -/
abbrev Wq (c : Dev nD) : IVec ⟨2, ![4096, 2048]⟩ 32 := m ((c : Thread nD τ).loc main_arg1)
/-- The group scales. -/
abbrev Sc (c : Dev nD) : FVec Ideal ⟨2, ![4096, 64]⟩ .f32 := m ((c : Thread nD τ).loc main_arg2)
/-- The group zero points. -/
abbrev Zr (c : Dev nD) : FVec Ideal ⟨2, ![4096, 64]⟩ .f32 := m ((c : Thread nD τ).loc main_arg3)
/-- The rows' second scale. -/
abbrev S2 (c : Dev nD) : FVec Ideal ⟨1, ![4096]⟩ .f32 := m ((c : Thread nD τ).loc main_arg4)

/-- The point's even-column block of x, -/
abbrev xe (c : Dev nD) (t : Fin cfg0.N) : FVec Ideal S1024x256 .f32 := iblk m c 0 t
/-- its odd-column block, -/
abbrev xo (c : Dev nD) (t : Fin cfg0.N) : FVec Ideal S1024x256 .f32 := iblk m c 1 t
/-- its block of packed words, -/
abbrev wb (c : Dev nD) (t : Fin cfg0.N) : IVec S1024x256 32 := iblk m c 2 t
/-- of transposed scales, -/
abbrev sb (c : Dev nD) (t : Fin cfg0.N) : FVec Ideal S8x1024 .f32 := iblk m c 3 t
/-- of transposed zero points, -/
abbrev zb (c : Dev nD) (t : Fin cfg0.N) : FVec Ideal S8x1024 .f32 := iblk m c 4 t
/-- and of second scales. -/
abbrev s2b (c : Dev nD) (t : Fin cfg0.N) : FVec Ideal S1024 .f32 := iblk m c 5 t

theorem xe_at (c : Dev nD) (t : Fin cfg0.N) (a : Fin 1024) (p : Fin 256) :
    xe m c t (ix2 a p) = X m c (ix2 (rowX t a) (⟨2 * (colQ t p).val, by have := (colQ t p).isLt; omega⟩ : Fin 4096)) :=
  (xeven_block m c t a p).trans (V_even m c _ _)
theorem xo_at (c : Dev nD) (t : Fin cfg0.N) (a : Fin 1024) (p : Fin 256) :
    xo m c t (ix2 a p) = X m c (ix2 (rowX t a) (⟨2 * (colQ t p).val + 1, by have := (colQ t p).isLt; omega⟩ : Fin 4096)) :=
  (xodd_block m c t a p).trans (V_odd m c _ _)
theorem wb_at (c : Dev nD) (t : Fin cfg0.N) (s : Fin 1024) (p : Fin 256) :
    wb m c t (ix2 s p) = Wq m c (ix2 (rowW t s) (colQ t p)) :=
  (word_block m c t s p).trans (congrFun (V_main_arg1 m c) _)
theorem sb_at (c : Dev nD) (t : Fin cfg0.N) (g : Fin 8) (s : Fin 1024) :
    sb m c t (ix2 g s) = Sc m c (ix2 (rowW t s) (grpG t g)) :=
  (scale_block m c t g s).trans (V_scaleT m c _ _)
theorem zb_at (c : Dev nD) (t : Fin cfg0.N) (g : Fin 8) (s : Fin 1024) :
    zb m c t (ix2 g s) = Zr m c (ix2 (rowW t s) (grpG t g)) :=
  (zero_block m c t g s).trans (V_zeroT m c _ _)
theorem s2b_at (c : Dev nD) (t : Fin cfg0.N) (s : Fin 1024) :
    s2b m c t (ix1 s) = S2 m c (ix1 (rowW t s)) :=
  (scale2_block m c t s).trans (congrFun (V_main_arg4 m c) _)

/-- The result array: the specification at the argument arrays. -/
abbrev result (c : Dev nD) : Buf (Elt Ideal) ((c : Thread nD τ).loc main_v7) :=
  Cert.Weights.G (X m c) (Wq m c) (Sc m c) (Zr m c) (S2 m c)

/-- One term of the product: `x[u, col] · W[v, col]`. -/
abbrev term (c : Dev nD) (u : Fin 8192) (v col : Fin 4096) : EReal :=
  X m c (ix2 u col) * Cert.Weights.wgt (Wq m c) (Sc m c) (Zr m c) (S2 m c) v col

/-! ## A point's share of an entry of its block -/

/-- Point `n`'s share of entry (a, b): over its 256 column pairs, even-column x times low-field weight, plus
    odd-column x times high-field weight (zero past the grid, where it is never used). -/
def share (c : Dev nD) (n : ℕ) (a b : Fin 1024) : EReal :=
  if hb : n < cfg0.N then
    (∑ p : Fin 256, xe m c (⟨n, hb⟩ : Fin cfg0.N) (ix2 a p) * loW (wb m c (⟨n, hb⟩ : Fin cfg0.N)) (sb m c (⟨n, hb⟩ : Fin cfg0.N)) (zb m c (⟨n, hb⟩ : Fin cfg0.N)) (s2b m c (⟨n, hb⟩ : Fin cfg0.N)) b p)
      + ∑ p : Fin 256, xo m c (⟨n, hb⟩ : Fin cfg0.N) (ix2 a p) * hiW (wb m c (⟨n, hb⟩ : Fin cfg0.N)) (sb m c (⟨n, hb⟩ : Fin cfg0.N)) (zb m c (⟨n, hb⟩ : Fin cfg0.N)) (s2b m c (⟨n, hb⟩ : Fin cfg0.N)) b p
  else 0

/-- The step at a point adds the point's share to each entry. -/
theorem step_point (c : Dev nD) (n : ℕ) (hb : n < cfg0.N) (acc : Vec Ideal S1024x1024 .f32) (a b : Fin 1024) :
    step (F := Ideal) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (ix2 a b) = acc (ix2 a b) + share m c n a b := by
  rw [step_apply]
  unfold share
  rw [dif_pos hb]

/-- The zero block. -/
theorem zero_apply (y : S1024x1024.Idx) : k0_pay3 (F := Ideal) y = 0 := by
  unfold k0_pay3
  rw [shapeCast_self]
  show Ideal.ofBits .f32 0x00000000#32 = 0
  exact Ideal.ofBits_zero_f32

/-- At the first point of a run the accumulator is the zero block plus the point's share; -/
theorem carried_first (c : Dev nD) (n : ℕ) (hb : n < cfg0.N) (h0 : n % 8 = 0) (acc : Vec Ideal S1024x1024 .f32)
    (a b : Fin 1024) : scAt0_0 m c n hb acc (ix2 a b) = 0 + share m c n a b := by
  have h1 : ¬n % 8 = 7 := by omega
  unfold scAt0_0
  rw [dif_pos h0, dif_neg h1]
  rw [sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))]
  rw [step_point m c n hb _ a b, zero_apply]

/-- at every other point it is what the point before left plus the point's share. -/
theorem carried_next (c : Dev nD) (n : ℕ) (hb : n < cfg0.N) (h0 : ¬n % 8 = 0) (acc : Vec Ideal S1024x1024 .f32)
    (a b : Fin 1024) : scAt0_0 m c n hb acc (ix2 a b) = acc (ix2 a b) + share m c n a b := by
  unfold scAt0_0
  rw [dif_neg h0]
  by_cases h1 : n % 8 = 7
  · rw [dif_pos h1]
    rw [sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc]
    exact step_point m c n hb acc a b
  · rw [dif_neg h1]
    rw [sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc]
    exact step_point m c n hb acc a b

/-- After the last point of a run the accumulator's entry is the sum of the run's eight shares. -/
theorem carried_last (c : Dev nD) (t : Fin cfg0.N) (h7 : t.val % 8 = 7) (a b : Fin 1024) :
    (outsAt0 m c t.val t.isLt).2 (ix2 a b) = ∑ s ∈ Finset.range 8, share m c (8 * (t.val / 8) + s) a b := by
  rw [soutsAt0_0_eq m c t]
  have key := Pipeline.accAt_add_apply (N := cfg0.N) (ι := S1024x1024.Idx) (β := EReal)
    (fun n h => scAt0_0 m c n h (VS0_0.read (Elt Ideal) VS0_0.junk)) (scAt0_0 m c) (fun _ => 0)
    (fun n y => share m c n (y 0) (y 1)) (8 * (t.val / 8)) 7
    (fun h y => by
      obtain ⟨a', b', rfl⟩ : ∃ (a' b' : Fin 1024), y = ix2 a' b' := ⟨y 0, y 1, eq_ix2 y⟩
      exact carried_first m c _ h (by omega) _ a' b')
    (fun n h acc y hlt hle => by
      obtain ⟨a', b', rfl⟩ : ∃ (a' b' : Fin 1024), y = ix2 a' b' := ⟨y 0, y 1, eq_ix2 y⟩
      exact carried_next m c n h (by omega) acc a' b')
    7 le_rfl
  have hj : t.val % 8 = 7 := h7
  have e : ∀ (j : ℕ) (hj' : j = 7) (h : 8 * (t.val / 8) + j < cfg0.N),
      Pipeline.accAt (fun n h => scAt0_0 m c n h (VS0_0.read (Elt Ideal) VS0_0.junk)) (scAt0_0 m c) (8 * (t.val / 8)) j h (ix2 a b)
        = ∑ s ∈ Finset.range 8, share m c (8 * (t.val / 8) + s) a b := by
    intro j hj' h
    subst hj'
    rw [key h (ix2 a b), zero_add]
  exact e _ hj _

/-! ## A share, in the whole arrays -/

/-- The share of point (i, j, k) at entry (a, b): the terms of columns `512·k + 2·p` and `512·k + 2·p + 1`
    of row `1024·i + a` of x against row `1024·j + b` of the weight. -/
theorem share_eq (c : Dev nD) (t : Fin cfg0.N) (a b : Fin 1024) :
    share m c t.val a b
      = (∑ p : Fin 256, term m c (rowX t a) (rowW t b) ⟨512 * (t.val % 8) + 2 * p.val, by have := p.isLt; omega⟩)
        + ∑ p : Fin 256, term m c (rowX t a) (rowW t b) ⟨512 * (t.val % 8) + 2 * p.val + 1, by have := p.isLt; omega⟩ := by
  obtain ⟨n, hb⟩ := t
  unfold share
  rw [dif_pos hb]
  congr 1
  · refine Finset.sum_congr rfl fun p _ => ?_
    have hp := p.isLt
    have ecol : (⟨2 * (colQ (⟨n, hb⟩ : Fin cfg0.N) p).val, by have := (colQ (⟨n, hb⟩ : Fin cfg0.N) p).isLt; omega⟩ : Fin 4096) = ⟨512 * (n % 8) + 2 * p.val, by omega⟩ :=
      Fin.ext (by show 2 * (256 * (n % 8) + p.val) = 512 * (n % 8) + 2 * p.val; omega)
    have ehalf : Cert.Weights.half (⟨512 * (n % 8) + 2 * p.val, by omega⟩ : Fin 4096) = colQ (⟨n, hb⟩ : Fin cfg0.N) p :=
      Fin.ext (by show (512 * (n % 8) + 2 * p.val) / 2 = 256 * (n % 8) + p.val; omega)
    have egrp : Cert.Weights.grp (⟨512 * (n % 8) + 2 * p.val, by omega⟩ : Fin 4096) = grpG (⟨n, hb⟩ : Fin cfg0.N) (grp8 p) :=
      Fin.ext (by show (512 * (n % 8) + 2 * p.val) / 64 = 8 * (n % 8) + p.val / 32; omega)
    have epar : (512 * (n % 8) + 2 * p.val) % 2 = 0 := by omega
    show xe m c (⟨n, hb⟩ : Fin cfg0.N) (ix2 a p) * Cert.Weights.deq (IntOp.andi (wb m c (⟨n, hb⟩ : Fin cfg0.N) (ix2 b p)) 15#32) (zb m c (⟨n, hb⟩ : Fin cfg0.N) (ix2 (grp8 p) b)) (sb m c (⟨n, hb⟩ : Fin cfg0.N) (ix2 (grp8 p) b)) (s2b m c (⟨n, hb⟩ : Fin cfg0.N) (ix1 b))
      = X m c (ix2 (rowX (⟨n, hb⟩ : Fin cfg0.N) a) ⟨512 * (n % 8) + 2 * p.val, by omega⟩)
        * Cert.Weights.deq (Cert.Weights.field (Wq m c (ix2 (rowW (⟨n, hb⟩ : Fin cfg0.N) b) (Cert.Weights.half ⟨512 * (n % 8) + 2 * p.val, by omega⟩))) ((512 * (n % 8) + 2 * p.val) % 2))
            (Zr m c (ix2 (rowW (⟨n, hb⟩ : Fin cfg0.N) b) (Cert.Weights.grp ⟨512 * (n % 8) + 2 * p.val, by omega⟩)))
            (Sc m c (ix2 (rowW (⟨n, hb⟩ : Fin cfg0.N) b) (Cert.Weights.grp ⟨512 * (n % 8) + 2 * p.val, by omega⟩))) (S2 m c (ix1 (rowW (⟨n, hb⟩ : Fin cfg0.N) b)))
    rw [xe_at, wb_at, zb_at, sb_at, s2b_at, ecol, ehalf, egrp, epar]
    rfl
  · refine Finset.sum_congr rfl fun p _ => ?_
    have hp := p.isLt
    have ecol : (⟨2 * (colQ (⟨n, hb⟩ : Fin cfg0.N) p).val + 1, by have := (colQ (⟨n, hb⟩ : Fin cfg0.N) p).isLt; omega⟩ : Fin 4096) = ⟨512 * (n % 8) + 2 * p.val + 1, by omega⟩ :=
      Fin.ext (by show 2 * (256 * (n % 8) + p.val) + 1 = 512 * (n % 8) + 2 * p.val + 1; omega)
    have ehalf : Cert.Weights.half (⟨512 * (n % 8) + 2 * p.val + 1, by omega⟩ : Fin 4096) = colQ (⟨n, hb⟩ : Fin cfg0.N) p :=
      Fin.ext (by show (512 * (n % 8) + 2 * p.val + 1) / 2 = 256 * (n % 8) + p.val; omega)
    have egrp : Cert.Weights.grp (⟨512 * (n % 8) + 2 * p.val + 1, by omega⟩ : Fin 4096) = grpG (⟨n, hb⟩ : Fin cfg0.N) (grp8 p) :=
      Fin.ext (by show (512 * (n % 8) + 2 * p.val + 1) / 64 = 8 * (n % 8) + p.val / 32; omega)
    have epar : (512 * (n % 8) + 2 * p.val + 1) % 2 = 1 := by omega
    show xo m c (⟨n, hb⟩ : Fin cfg0.N) (ix2 a p) * Cert.Weights.deq (IntOp.andi (IntOp.shrsi .vector (wb m c (⟨n, hb⟩ : Fin cfg0.N) (ix2 b p)) 4#32) 15#32) (zb m c (⟨n, hb⟩ : Fin cfg0.N) (ix2 (grp8 p) b)) (sb m c (⟨n, hb⟩ : Fin cfg0.N) (ix2 (grp8 p) b)) (s2b m c (⟨n, hb⟩ : Fin cfg0.N) (ix1 b))
      = X m c (ix2 (rowX (⟨n, hb⟩ : Fin cfg0.N) a) ⟨512 * (n % 8) + 2 * p.val + 1, by omega⟩)
        * Cert.Weights.deq (Cert.Weights.field (Wq m c (ix2 (rowW (⟨n, hb⟩ : Fin cfg0.N) b) (Cert.Weights.half ⟨512 * (n % 8) + 2 * p.val + 1, by omega⟩))) ((512 * (n % 8) + 2 * p.val + 1) % 2))
            (Zr m c (ix2 (rowW (⟨n, hb⟩ : Fin cfg0.N) b) (Cert.Weights.grp ⟨512 * (n % 8) + 2 * p.val + 1, by omega⟩)))
            (Sc m c (ix2 (rowW (⟨n, hb⟩ : Fin cfg0.N) b) (Cert.Weights.grp ⟨512 * (n % 8) + 2 * p.val + 1, by omega⟩))) (S2 m c (ix1 (rowW (⟨n, hb⟩ : Fin cfg0.N) b)))
    rw [xo_at, wb_at, zb_at, sb_at, s2b_at, ecol, ehalf, egrp, epar, Cert.Weights.shrsi_four]
    rfl

/-! ## What the last point of a run writes back, and the whole array -/

/-- Entry (a, b) of output block (i, j) is entry (1024·i + a, 1024·j + b) of the array. -/
theorem out_emb (t : Fin cfg0.N) (a b : Fin 1024) :
    ((cfg0.win 6).blk t).view.emb (ix2 a b) = ix2 (rowX t a) (rowW t b) := by
  funext x
  apply Fin.ext
  match x with
  | ⟨0, _⟩ => show win0_6.index t 0 * 1024 + 1 * a.val = 1024 * (t.val / 32) + a.val; rw [(index6 t).1]; omega
  | ⟨1, _⟩ => show win0_6.index t 1 * 1024 + 1 * b.val = 1024 * (t.val / 8 % 4) + b.val; rw [(index6 t).2]; omega

/-- WHAT A FLUSHING POINT WRITES BACK is its block of the result. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  have h0 : ¬t.val % 8 = 0 := by omega
  have hN := lt256 t
  rw [flushed6 m c t]
  have e1 : (outsAt0 m c t.val t.isLt).1 = (outsAt0 m c t.val t.isLt).2 := by
    rw [outsAt0_C m c t h0 h7]
    dsimp only
    rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _, sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _]
  rw [e1]
  funext y
  obtain ⟨a, b, rfl⟩ : ∃ (a b : Fin 1024), y = ix2 a b := ⟨y 0, y 1, eq_ix2 y⟩
  show (outsAt0 m c t.val t.isLt).2 (ix2 a b) = result m c (((cfg0.win 6).blk t).view.emb (ix2 a b))
  rw [carried_last m c t h7 a b, out_emb t a b]
  show _ = ∑ col : Fin 4096, term m c (rowX t a) (rowW t b) col
  refine (Cert.SumSplit.sum_blocks (fun col => term m c (rowX t a) (rowW t b) col)
    (fun s => share m c (8 * (t.val / 8) + s) a b) (fun s hs => ?_)).symm
  have hb' : 8 * (t.val / 8) + s < cfg0.N := by have hN' : cfg0.N = 256 := N_0; omega
  have hs' := share_eq m c ⟨8 * (t.val / 8) + s, hb'⟩ a b
  have er : rowX (⟨8 * (t.val / 8) + s, hb'⟩ : Fin cfg0.N) a = rowX t a := Fin.ext (by
    show 1024 * ((8 * (t.val / 8) + s) / 32) + a.val = 1024 * (t.val / 32) + a.val; omega)
  have ew : rowW (⟨8 * (t.val / 8) + s, hb'⟩ : Fin cfg0.N) b = rowW t b := Fin.ext (by
    show 1024 * ((8 * (t.val / 8) + s) / 8 % 4) + b.val = 1024 * (t.val / 8 % 4) + b.val; omega)
  have ek : (8 * (t.val / 8) + s) % 8 = s := by omega
  rw [er, ew] at hs'
  refine hs'.trans ?_
  congr 1
  · refine Finset.sum_congr rfl fun p _ => ?_
    congr 1
    apply Fin.ext
    show 512 * ((8 * (t.val / 8) + s) % 8) + 2 * p.val = 512 * s + 2 * p.val
    rw [ek]
  · refine Finset.sum_congr rfl fun p _ => ?_
    congr 1
    apply Fin.ext
    show 512 * ((8 * (t.val / 8) + s) % 8) + 2 * p.val + 1 = 512 * s + 2 * p.val + 1
    rw [ek]

/-- Every entry of the array lies in the block some run's last point writes back. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 256 := N_0
  obtain ⟨t, ht⟩ : ∃ t : Fin cfg0.N, t.val = ((i 0).val / 1024 * 4 + (i 1).val / 1024) * 8 + 7 :=
    ⟨⟨((i 0).val / 1024 * 4 + (i 1).val / 1024) * 8 + 7, by rw [hN]; omega⟩, rfl⟩
  refine ⟨t, (flush0_6 t).mpr (by omega), ?_⟩
  show i ∈ ((View.whole main_v7).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [(index6 t).1]
    omega
  | ⟨1, _⟩ =>
    show win0_6.index t 1 * 1024 ≤ (i 1).val ∧ (i 1).val < win0_6.index t 1 * 1024 + 1024
    rw [(index6 t).2]
    omega

/-- So the result array ends holding the product. -/
theorem final (c : Dev nD) : (dats m 0 c).arrAt 6 cfg0.N = result m c :=
  (dats m 0 c).arrAt_eq_of_cover 6 (result m c) (flushed_eq m c) cover

/-- The run, read: the result array at the product, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.FoldValue

end
-- ==== Proof.RefIsG.lean ====
/-
  The reference program, read at the ideal instance, computes the specification `G`.

  The reference builds the whole dequantised weight matrix and then multiplies. Column `k` of row `n` of that
  matrix is followed backwards through the program, one operation at a time:

  * the final contraction sums `x[m, k] · Wt[k, n]` over `k`, and `Wt` is the transpose, so `Wt[k, n] = W[n, k]`;
  * `W[n, k]` is the group-dequantised value times the row's second scale `scale2[n]` (a column vector
    broadcast along the row);
  * the group-dequantised value at `(n, k)` is the element `(n, k / 64, k % 64)` of the array viewed as 64 groups
    of 64 columns: there the zero point and the scale are read at `(n, k / 64)`, whatever the position `k % 64`
    inside the group, so the value is `(q − zero[n, k / 64]) · scale[n, k / 64]`;
  * `q`, the integer field converted exactly, comes from the `[4096, 4096]` array of fields, which is the
    `[4096, 2048, 2]` array of pairs flattened row-major: element `(n, k)` is pair `k / 2`, member `k % 2`;
  * the array of pairs is the two field arrays joined along a new last axis of length two: member 0 of a pair is
    the first piece, the low four bits of the packed word; member 1 is the second piece, the next four bits (the
    word shifted right by four, then masked). Hence an even column reads the low field of word `k / 2` and an odd
    column the high one, which is `Cert.Weights.field` at parity `k % 2`.

  Each lemma below states one of these steps at explicit coordinates; the index arithmetic of the three reshapes is
  linear arithmetic with division by literals.
-/
import proofs.«125095_j88304527606015_1_alg».proof.Proof.Gen.ReferenceIdeal.Read
import proofs.«125095_j88304527606015_1_alg».proof.Proof.Weights
import Idealize.ShloMosaic.Lib.Pipeline.Value
import Idealize.ShloMosaic.Lib.ValueIdx

noncomputable section

namespace Cert.RefBridge

open Idealize.ShloMosaic Idealize.ShloMosaic.ValueIdx Cert.ReferenceIdeal Cert.ReferenceIdeal.Read

section Weight

variable (x1 : (⟨S4096x2048, .i32⟩ : BufTy).Contents (Elt Ideal))
  (x2 x3 : (⟨S4096x64, .f32⟩ : BufTy).Contents (Elt Ideal))
  (x4 : (⟨S4096, .f32⟩ : BufTy).Contents (Elt Ideal))

/-- The first piece of the join: the low four bits of packed word `(n, q)`. The trailing unit axis carries no
    information, and the mask is the constant 15 broadcast to every position. -/
theorem v6_at (n : Fin 4096) (q : Fin 2048) :
    val_main_v6 (F := Ideal) x1 (ix3 n q (0 : Fin 1)) = IntOp.andi (x1 (ix2 n q)) 15#32 := by
  have e : idx_main_v6 (ix3 n q (0 : Fin 1)) = ix2 n q := by
    funext a; match a with | ⟨0, _⟩ => rfl | ⟨1, _⟩ => rfl
  rw [val_main_v6_apply, val_main_v1_apply, val_main_v0_apply, val_main_c_apply, e]

/-- The second piece of the join: packed word `(n, q)` shifted right by four (arithmetically; the mask then
    discards the sign copies), masked to four bits. -/
theorem v7_at (n : Fin 4096) (q : Fin 2048) :
    val_main_v7 (F := Ideal) x1 (ix3 n q (0 : Fin 1))
      = IntOp.andi (IntOp.shrsi .host (x1 (ix2 n q)) 4#32) 15#32 := by
  have e : idx_main_v7 (ix3 n q (0 : Fin 1)) = ix2 n q := by
    funext a; match a with | ⟨0, _⟩ => rfl | ⟨1, _⟩ => rfl
  rw [val_main_v7_apply, val_main_v5_apply, val_main_v3_apply, val_main_v2_apply, val_main_c_0_apply,
    val_main_v4_apply, val_main_c_1_apply, e]

/-- The join along the last axis. Both pieces have length one there, so coordinate 0 falls in the first piece (at
    its only position) and coordinate 1 in the second (position `1 − 1 = 0`); the other two coordinates are kept.
    Member `b` of pair `(n, q)` is therefore the field of parity `b` of word `(n, q)`. -/
theorem v8_at (n : Fin 4096) (q : Fin 2048) (b : Fin 2) :
    val_main_v8 (F := Ideal) x1 (ix3 n q b) = Cert.Weights.field (x1 (ix2 n q)) b.val := by
  unfold val_main_v8
  match b with
  | ⟨0, _⟩ =>
    refine (concatenate_pair_apply_left (t := S4096x2048x2) (s₁ := S4096x2048x1) (s₂ := S4096x2048x1) 2 _ _ _
      (ix3 n q (0 : Fin 2)) rfl (ix3 n q (0 : Fin 1)) (fun c => ?_)).trans ?_
    · match c with
      | ⟨0, _⟩ => rfl
      | ⟨1, _⟩ => rfl
      | ⟨2, _⟩ => rfl
    · rw [v6_at]; unfold Cert.Weights.field; rw [if_pos rfl]
  | ⟨1, _⟩ =>
    refine (concatenate_pair_apply_right (t := S4096x2048x2) (s₁ := S4096x2048x1) (s₂ := S4096x2048x1) 2 _ _ _
      (ix3 n q (1 : Fin 2)) rfl rfl (ix3 n q (0 : Fin 1)) (fun c hc => ?_) rfl).trans ?_
    · match c with
      | ⟨0, _⟩ => rfl
      | ⟨1, _⟩ => rfl
      | ⟨2, _⟩ => exact absurd rfl hc
    · rw [v7_at]; unfold Cert.Weights.field; rw [if_neg Nat.one_ne_zero]

/-- Flattening pairs into columns: the row-major position of `(n, k)` in `[4096, 4096]` is `n · 4096 + k`, which in
    `[4096, 2048, 2]` is row `n`, pair `k / 2`, member `k % 2`. Column `k` reads the field of its parity in word
    `k / 2`. -/
theorem v9_at (n k : Fin 4096) :
    val_main_v9 (F := Ideal) x1 (ix2 n k)
      = Cert.Weights.field (x1 (ix2 n (Cert.Weights.half k))) (k.val % 2) := by
  have hn := n.isLt
  have hk := k.isLt
  have e : idx_main_v9 (ix2 n k)
      = ix3 n (Cert.Weights.half k) (⟨k.val % 2, Nat.mod_lt _ (by decide)⟩ : Fin 2) := by
    funext a
    match a with
    | ⟨0, _⟩ => exact Fin.ext (by show (n.val * 4096 + k.val) / 4096 = n.val; omega)
    | ⟨1, _⟩ => exact Fin.ext (by show (n.val * 4096 + k.val) / 2 % 2048 = k.val / 2; omega)
    | ⟨2, _⟩ => exact Fin.ext (by show (n.val * 4096 + k.val) % 2 = k.val % 2; omega)
  rw [val_main_v9_apply, e, v8_at]

/-- Position `k % 64` inside a group of 64 columns. -/
abbrev pos (k : Fin 4096) : Fin 64 := ⟨k.val % 64, Nat.mod_lt _ (by decide)⟩

/-- Splitting a row of 4096 columns into 64 groups of 64: element `(n, k / 64, k % 64)` has row-major position
    `(n · 64 + k / 64) · 64 + k % 64 = n · 4096 + k`, so it is column `k` of row `n`, converted exactly from its
    integer field. -/
theorem v11_at (n k : Fin 4096) :
    val_main_v11 (F := Ideal) x1 (ix3 n (Cert.Weights.grp k) (pos k))
      = FloatOps.sitofp (F := Ideal) .f32
          (Cert.Weights.field (x1 (ix2 n (Cert.Weights.half k))) (k.val % 2)) := by
  have hn := n.isLt
  have hk := k.isLt
  have e : idx_main_v11 (ix3 n (Cert.Weights.grp k) (pos k)) = ix2 n k := by
    funext a
    match a with
    | ⟨0, _⟩ =>
      exact Fin.ext (by show ((n.val * 64 + k.val / 64) * 64 + k.val % 64) / 4096 = n.val; omega)
    | ⟨1, _⟩ =>
      exact Fin.ext (by show ((n.val * 64 + k.val / 64) * 64 + k.val % 64) % 4096 = k.val; omega)
  rw [val_main_v11_apply, e, val_main_v10_apply, v9_at]

/-- The zero point seen from inside a group: the same `zero[n, g]` at every position `r` of group `g` (a unit axis
    appended, then stretched to the group's 64 positions). -/
theorem v13_at (n : Fin 4096) (g r : Fin 64) :
    val_main_v13 (F := Ideal) x3 (ix3 n g r) = x3 (ix2 n g) := by
  have e1 : idx_main_v13 (ix3 n g r) = ix3 n g (0 : Fin 1) := by
    funext a; match a with | ⟨0, _⟩ => rfl | ⟨1, _⟩ => rfl | ⟨2, _⟩ => rfl
  have e2 : idx_main_v12 (ix3 n g (0 : Fin 1)) = ix2 n g := by
    funext a; match a with | ⟨0, _⟩ => rfl | ⟨1, _⟩ => rfl
  rw [val_main_v13_apply, e1, val_main_v12_apply, e2]

/-- The scale seen from inside a group: the same `scale[n, g]` at every position of group `g`. -/
theorem v16_at (n : Fin 4096) (g r : Fin 64) :
    val_main_v16 (F := Ideal) x2 (ix3 n g r) = x2 (ix2 n g) := by
  have e1 : idx_main_v16 (ix3 n g r) = ix3 n g (0 : Fin 1) := by
    funext a; match a with | ⟨0, _⟩ => rfl | ⟨1, _⟩ => rfl | ⟨2, _⟩ => rfl
  have e2 : idx_main_v15 (ix3 n g (0 : Fin 1)) = ix2 n g := by
    funext a; match a with | ⟨0, _⟩ => rfl | ⟨1, _⟩ => rfl
  rw [val_main_v16_apply, e1, val_main_v15_apply, e2]

/-- Merging the groups back into a row: column `k` of row `n` is position `k % 64` of group `k / 64`, where the value
    is `(q − zero[n, k / 64]) · scale[n, k / 64]` with `q` the column's field. -/
theorem v18_at (n k : Fin 4096) :
    val_main_v18 (F := Ideal) x1 x2 x3 (ix2 n k)
      = (FloatOps.sitofp (F := Ideal) .f32
            (Cert.Weights.field (x1 (ix2 n (Cert.Weights.half k))) (k.val % 2))
          - x3 (ix2 n (Cert.Weights.grp k))) * x2 (ix2 n (Cert.Weights.grp k)) := by
  have hn := n.isLt
  have hk := k.isLt
  have e : idx_main_v18 (ix2 n k) = ix3 n (Cert.Weights.grp k) (pos k) := by
    funext a
    match a with
    | ⟨0, _⟩ => exact Fin.ext (by show (n.val * 4096 + k.val) / 4096 = n.val; omega)
    | ⟨1, _⟩ => exact Fin.ext (by show (n.val * 4096 + k.val) / 64 % 64 = k.val / 64; omega)
    | ⟨2, _⟩ => exact Fin.ext (by show (n.val * 4096 + k.val) % 64 = k.val % 64; omega)
  rw [val_main_v18_apply, e, val_main_v17_apply, val_main_v14_apply, v11_at, v13_at, v16_at]
  rfl

/-- The second scale as a matrix: `scale2[n]` at every column of row `n`. -/
theorem v20_at (n k : Fin 4096) :
    val_main_v20 (F := Ideal) x4 (ix2 n k) = x4 (ix1 n) := by
  have e1 : idx_main_v20 (ix2 n k) = ix2 n (0 : Fin 1) := by
    funext a; match a with | ⟨0, _⟩ => rfl | ⟨1, _⟩ => rfl
  have e2 : idx_main_v19 (ix2 n (0 : Fin 1)) = ix1 n := by
    funext a; match a with | ⟨0, _⟩ => rfl
  rw [val_main_v20_apply, e1, val_main_v19_apply, e2]

/-- The transposed weight matrix at `(k, n)` is the weight matrix at `(n, k)`: the specification's `W[n, k]`,
    the three factors multiplied in the same order. -/
theorem weight_eq (n k : Fin 4096) :
    val_main_v22 (F := Ideal) x1 x2 x3 x4 (ix2 k n) = Cert.Weights.wgt x1 x2 x3 x4 n k := by
  have e : idx_main_v22 (ix2 k n) = ix2 n k := by
    funext a; match a with | ⟨0, _⟩ => rfl | ⟨1, _⟩ => rfl
  rw [val_main_v22_apply, e, val_main_v21_apply, v18_at, v20_at]
  rfl

end Weight

/-- The reference's result is `G`: at `(m, n)` the contraction runs over the columns `k` of row `m` of `x` against
    row `k` of the transposed weights at column `n`, term by term the specification's `x[m, k] · W[n, k]`. -/
theorem ref_eq (x0 : (⟨Cert.ReferenceIdeal.S8192x4096, .f32⟩ : BufTy).Contents (Elt Ideal)) (x1 : (⟨Cert.ReferenceIdeal.S4096x2048, .i32⟩ : BufTy).Contents (Elt Ideal)) (x2 x3 : (⟨Cert.ReferenceIdeal.S4096x64, .f32⟩ : BufTy).Contents (Elt Ideal)) (x4 : (⟨Cert.ReferenceIdeal.S4096, .f32⟩ : BufTy).Contents (Elt Ideal)) :
    Cert.ReferenceIdeal.Read.val_main_v23 (F := Ideal) x0 x1 x2 x3 x4 = Cert.Weights.G x0 x1 x2 x3 x4 := by
  funext j
  obtain ⟨m, n, rfl⟩ : ∃ (m : Fin 8192) (n : Fin 4096), j = ix2 m n := ⟨j 0, j 1, eq_ix2 j⟩
  rw [val_main_v23_apply]
  show _ = ∑ c : Fin 4096, x0 (ix2 m c) * Cert.Weights.wgt x1 x2 x3 x4 n c
  refine Finset.sum_congr rfl fun k _ => ?_
  have el : lidx_main_v23 (ix2 m n) k = ix2 m k := by
    funext a; match a with | ⟨0, _⟩ => rfl | ⟨1, _⟩ => rfl
  have er : ridx_main_v23 (ix2 m n) k = ix2 k n := by
    funext a; match a with | ⟨0, _⟩ => rfl | ⟨1, _⟩ => rfl
  rw [el, er, weight_eq]

end Cert.RefBridge

end
-- ==== Proof.lean ====
/-
  A 4-bit quantised linear layer: `out = x · Wᵀ` with the weight stored as packed 4-bit fields and dequantised on
  the fly, `W[n, c] = ((field − zero[n, c / 64]) · scale[n, c / 64]) · scale2[n]` (Proof/Weights.lean).

  The kernel tiles the product 8 × 4 × 8: for each 1024 × 1024 output block it walks the 4096 columns in eight
  blocks of 512, and in each block pairs the low fields with the even columns of x and the high fields with the
  odd columns, accumulating two half-width products into a carried block (Proof/KernelPieces.lean,
  Proof/KernelStep.lean, Proof/KernelBlocks.lean); the reference unpacks the whole weight and takes one product.
  Over the extended reals the two agree term by term — the same field, zero point, scales and multiplication
  order — and differ only in how the sum over the columns is grouped (Proof/SumSplit.lean); commutativity and
  associativity of addition join them, so the finiteness of the inputs is never used
  (Proof/KernelValue.lean for the kernel's array, Proof/RefIsG.lean for the reference's).

  The kernel's idealisation rewrote nothing, so its soundness claim is trivial; the three frame claims are the
  generated frames (the reference's is its generated run with the result dropped).
-/
import proofs.«125095_j88304527606015_1_alg».proof.Defs
import proofs.«125095_j88304527606015_1_alg».proof.Proof.Gen.Kernel
import proofs.«125095_j88304527606015_1_alg».proof.Proof.Gen.Kernel.Skeleton
import proofs.«125095_j88304527606015_1_alg».proof.Proof.Gen.Kernel.Launch
import proofs.«125095_j88304527606015_1_alg».proof.Proof.Gen.Kernel.Points
import proofs.«125095_j88304527606015_1_alg».proof.Proof.Gen.Kernel.Frame
import proofs.«125095_j88304527606015_1_alg».proof.Proof.Gen.KernelIdeal
import proofs.«125095_j88304527606015_1_alg».proof.Proof.Gen.KernelIdeal.Skeleton
import proofs.«125095_j88304527606015_1_alg».proof.Proof.Gen.KernelIdeal.Launch
import proofs.«125095_j88304527606015_1_alg».proof.Proof.Gen.KernelIdeal.Points
import proofs.«125095_j88304527606015_1_alg».proof.Proof.Gen.KernelIdeal.Frame
import proofs.«125095_j88304527606015_1_alg».proof.Proof.Gen.ReferenceIdeal
import proofs.«125095_j88304527606015_1_alg».proof.Proof.Gen.KernelIdeal.Value
import proofs.«125095_j88304527606015_1_alg».proof.Proof.Gen.ReferenceIdeal.Run
import proofs.«125095_j88304527606015_1_alg».proof.Proof.Gen.ReferenceIdeal.Read
import proofs.«125095_j88304527606015_1_alg».proof.Proof.Gen.Pre_finite_inputs
import proofs.«125095_j88304527606015_1_alg».proof.Proof.KernelValue
import proofs.«125095_j88304527606015_1_alg».proof.Proof.RefIsG
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product `Σ_c x[m, c] · W[n, c]` of arguments that agree. -/
theorem algebraic : Cert.algebraic_KernelIdeal_ReferenceIdeal := by
  intro m ρ m' ρ' _ hagree
  refine ⟨fun c => Cert.KernelIdeal.FoldValue.result m c, Cert.KernelIdeal.FoldValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefBridge.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
